-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v201)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v201) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S256x512 : Shape := ⟨2, ![256, 512]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S256x512 .f32) (main_arg3 : FVec F S256 .f32) (main_arg4 : FVec F S64x256 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S256x512 : Shape := ⟨2, ![256, 512]⟩
abbrev S256 : Shape := ⟨1, ![256]⟩
abbrev S64x256 : Shape := ⟨2, ![64, 256]⟩
abbrev S64 : Shape := ⟨1, ![64]⟩
abbrev S100000x64 : Shape := ⟨2, ![100000, 64]⟩
abbrev S5000x512 : Shape := ⟨2, ![5000, 512]⟩
abbrev S5000x64 : Shape := ⟨2, ![5000, 64]⟩
abbrev S512x256 : Shape := ⟨2, ![512, 256]⟩
abbrev S5000x256 : Shape := ⟨2, ![5000, 256]⟩
abbrev S1x256 : Shape := ⟨2, ![1, 256]⟩
abbrev S256x64 : Shape := ⟨2, ![256, 64]⟩
abbrev S1x64 : Shape := ⟨2, ![1, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩

abbrev nBuf : Space → Nat
  | .hbm => 268
  | .vmem => 8
  | .smem => 0
  | _ => 0

abbrev hbmTy0_0 (i : Nat) : BufTy := match i % 128 with
  | 0 => ⟨S100000x512, .f32⟩
  | 1 => ⟨S2x1600000, .i32⟩
  | 2 => ⟨S256x512, .f32⟩
  | 3 => ⟨S256, .f32⟩
  | 4 => ⟨S64x256, .f32⟩
  | 5 => ⟨S64, .f32⟩
  | 6 => ⟨S100000x64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S_, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x64, .f32⟩
  | 79 => ⟨S1700000x64, .f32⟩
  | 80 => ⟨S1700000x64, .f32⟩
  | 81 => ⟨S_, .f32⟩
  | 82 => ⟨S100000x64, .f32⟩
  | 83 => ⟨S1700000x1, .i32⟩
  | 84 => ⟨S100000x64, .f32⟩
  | 85 => ⟨S_, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x64, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S_, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x512, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x64, .f32⟩
  | 17 => ⟨S1700000x64, .f32⟩
  | 18 => ⟨S1700000x64, .f32⟩
  | 19 => ⟨S_, .f32⟩
  | 20 => ⟨S100000x64, .f32⟩
  | 21 => ⟨S1700000x1, .i32⟩
  | 22 => ⟨S100000x64, .f32⟩
  | 23 => ⟨S_, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S100000x64, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x64, .f32⟩
  | 39 => ⟨S1700000x64, .f32⟩
  | 40 => ⟨S1700000x64, .f32⟩
  | 41 => ⟨S_, .f32⟩
  | 42 => ⟨S100000x64, .f32⟩
  | 43 => ⟨S1700000x1, .i32⟩
  | 44 => ⟨S100000x64, .f32⟩
  | 45 => ⟨S_, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S_, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S_, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x64, .f32⟩
  | 105 => ⟨S1700000x64, .f32⟩
  | 106 => ⟨S1700000x64, .f32⟩
  | 107 => ⟨S_, .f32⟩
  | 108 => ⟨S100000x64, .f32⟩
  | 109 => ⟨S1700000x1, .i32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x64, .f32⟩
  | _ => ⟨S100000x512, .f32⟩

abbrev hbmTy0_2 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S_, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x64, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S256x512, .f32⟩
  | .local _ .vmem, ⟨3, _⟩ => ⟨S256, .f32⟩
  | .local _ .vmem, ⟨4, _⟩ => ⟨S64x256, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_c_17 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_19 : Ref sig .tc := ⟨.hbm, 107, rfl⟩
abbrev main_v78 : Ref sig .tc := ⟨.hbm, 108, rfl⟩
abbrev main_v79 : Ref sig .tc := ⟨.hbm, 109, rfl⟩
abbrev main_cst_20 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_21 : Ref sig .tc := ⟨.hbm, 114, rfl⟩
abbrev main_v83 : Ref sig .tc := ⟨.hbm, 115, rfl⟩
abbrev main_v84 : Ref sig .tc := ⟨.hbm, 116, rfl⟩
abbrev main_c_22 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_23 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_24 : Ref sig .tc := ⟨.hbm, 129, rfl⟩
abbrev main_v95 : Ref sig .tc := ⟨.hbm, 130, rfl⟩
abbrev main_v96 : Ref sig .tc := ⟨.hbm, 131, rfl⟩
abbrev main_cst_25 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_26 : Ref sig .tc := ⟨.hbm, 136, rfl⟩
abbrev main_v100 : Ref sig .tc := ⟨.hbm, 137, rfl⟩
abbrev main_v101 : Ref sig .tc := ⟨.hbm, 138, rfl⟩
abbrev main_c_27 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_28 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_29 : Ref sig .tc := ⟨.hbm, 151, rfl⟩
abbrev main_v112 : Ref sig .tc := ⟨.hbm, 152, rfl⟩
abbrev main_v113 : Ref sig .tc := ⟨.hbm, 153, rfl⟩
abbrev main_cst_30 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_31 : Ref sig .tc := ⟨.hbm, 158, rfl⟩
abbrev main_v117 : Ref sig .tc := ⟨.hbm, 159, rfl⟩
abbrev main_v118 : Ref sig .tc := ⟨.hbm, 160, rfl⟩
abbrev main_c_32 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_33 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_34 : Ref sig .tc := ⟨.hbm, 173, rfl⟩
abbrev main_v129 : Ref sig .tc := ⟨.hbm, 174, rfl⟩
abbrev main_v130 : Ref sig .tc := ⟨.hbm, 175, rfl⟩
abbrev main_cst_35 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_36 : Ref sig .tc := ⟨.hbm, 180, rfl⟩
abbrev main_v134 : Ref sig .tc := ⟨.hbm, 181, rfl⟩
abbrev main_v135 : Ref sig .tc := ⟨.hbm, 182, rfl⟩
abbrev main_c_37 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_38 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_39 : Ref sig .tc := ⟨.hbm, 195, rfl⟩
abbrev main_v146 : Ref sig .tc := ⟨.hbm, 196, rfl⟩
abbrev main_v147 : Ref sig .tc := ⟨.hbm, 197, rfl⟩
abbrev main_cst_40 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_c_41 : Ref sig .tc := ⟨.hbm, 202, rfl⟩
abbrev main_v151 : Ref sig .tc := ⟨.hbm, 203, rfl⟩
abbrev main_v152 : Ref sig .tc := ⟨.hbm, 204, rfl⟩
abbrev main_c_42 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_43 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_cst_44 : Ref sig .tc := ⟨.hbm, 217, rfl⟩
abbrev main_v163 : Ref sig .tc := ⟨.hbm, 218, rfl⟩
abbrev main_v164 : Ref sig .tc := ⟨.hbm, 219, rfl⟩
abbrev main_cst_45 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_c_46 : Ref sig .tc := ⟨.hbm, 224, rfl⟩
abbrev main_v168 : Ref sig .tc := ⟨.hbm, 225, rfl⟩
abbrev main_v169 : Ref sig .tc := ⟨.hbm, 226, rfl⟩
abbrev main_c_47 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_cst_48 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_cst_49 : Ref sig .tc := ⟨.hbm, 239, rfl⟩
abbrev main_v180 : Ref sig .tc := ⟨.hbm, 240, rfl⟩
abbrev main_v181 : Ref sig .tc := ⟨.hbm, 241, rfl⟩
abbrev main_cst_50 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_c_51 : Ref sig .tc := ⟨.hbm, 246, rfl⟩
abbrev main_v185 : Ref sig .tc := ⟨.hbm, 247, rfl⟩
abbrev main_v186 : Ref sig .tc := ⟨.hbm, 248, rfl⟩
abbrev main_c_52 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_cst_53 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_cst_54 : Ref sig .tc := ⟨.hbm, 261, rfl⟩
abbrev main_v197 : Ref sig .tc := ⟨.hbm, 262, rfl⟩
abbrev main_v198 : Ref sig .tc := ⟨.hbm, 263, rfl⟩
abbrev main_cst_55 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S5000x512_S5000x512_0_0 : ∀ a, (![0, 0] : Fin 2 → Nat) a + S5000x512.size a ≤ S5000x512.size a
  h_S5000x512 : 0 < S5000x512.numel
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S5000x512_S512x256_S5000x256_1_0_0_1_n_n_wf : DotDims.WF S5000x512 S512x256 S5000x256 [1] [0] [0] [1] [] []
  dot_S5000x256_S256x64_S5000x64_1_0_0_1_n_n_wf : DotDims.WF S5000x256 S256x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S256x512 : Shape := ⟨2, ![256, 512]⟩
abbrev S256 : Shape := ⟨1, ![256]⟩
abbrev S64x256 : Shape := ⟨2, ![64, 256]⟩
abbrev S64 : Shape := ⟨1, ![64]⟩
abbrev S512x256 : Shape := ⟨2, ![512, 256]⟩
abbrev S100000x256 : Shape := ⟨2, ![100000, 256]⟩
abbrev S1x256 : Shape := ⟨2, ![1, 256]⟩
abbrev S_ : Shape := ⟨0, ![]⟩
abbrev S256x64 : Shape := ⟨2, ![256, 64]⟩
abbrev S100000x64 : Shape := ⟨2, ![100000, 64]⟩
abbrev S1x64 : Shape := ⟨2, ![1, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩

abbrev nBuf : Space → Nat
  | .hbm => 280
  | .vmem => 0
  | .smem => 0
  | _ => 0

abbrev hbmTy0_0 (i : Nat) : BufTy := match i % 128 with
  | 0 => ⟨S100000x512, .f32⟩
  | 1 => ⟨S2x1600000, .i32⟩
  | 2 => ⟨S256x512, .f32⟩
  | 3 => ⟨S256, .f32⟩
  | 4 => ⟨S64x256, .f32⟩
  | 5 => ⟨S64, .f32⟩
  | 6 => ⟨S512x256, .f32⟩
  | 7 => ⟨S100000x256, .f32⟩
  | 8 => ⟨S1x256, .f32⟩
  | 9 => ⟨S100000x256, .f32⟩
  | 10 => ⟨S100000x256, .f32⟩
  | 11 => ⟨S_, .f32⟩
  | 12 => ⟨S100000x256, .f32⟩
  | 13 => ⟨S100000x256, .f32⟩
  | 14 => ⟨S256x64, .f32⟩
  | 15 => ⟨S100000x64, .f32⟩
  | 16 => ⟨S1x64, .f32⟩
  | 17 => ⟨S100000x64, .f32⟩
  | 18 => ⟨S100000x64, .f32⟩
  | 19 => ⟨S1x1600000, .i32⟩
  | 20 => ⟨S1600000, .i32⟩
  | 21 => ⟨S1x1600000, .i32⟩
  | 22 => ⟨S1600000, .i32⟩
  | 23 => ⟨S100000, .i32⟩
  | 24 => ⟨S1700000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S1700000x1, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x64, .f32⟩
  | 69 => ⟨S1700000x64, .f32⟩
  | 70 => ⟨S1700000x64, .f32⟩
  | 71 => ⟨S_, .f32⟩
  | 72 => ⟨S100000x64, .f32⟩
  | 73 => ⟨S1700000x1, .i32⟩
  | 74 => ⟨S100000x64, .f32⟩
  | 75 => ⟨S_, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x64, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x64, .f32⟩
  | 91 => ⟨S1700000x64, .f32⟩
  | 92 => ⟨S1700000x64, .f32⟩
  | 93 => ⟨S_, .f32⟩
  | 94 => ⟨S100000x64, .f32⟩
  | 95 => ⟨S1700000x1, .i32⟩
  | 96 => ⟨S100000x64, .f32⟩
  | 97 => ⟨S_, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x64, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S_, .i32⟩
  | 127 => ⟨S1700000, .i32⟩
  | _ => ⟨S100000x512, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x64, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S_, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000x64, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000x64, .f32⟩
  | 29 => ⟨S1700000x64, .f32⟩
  | 30 => ⟨S1700000x64, .f32⟩
  | 31 => ⟨S_, .f32⟩
  | 32 => ⟨S100000x64, .f32⟩
  | 33 => ⟨S1700000x1, .i32⟩
  | 34 => ⟨S100000x64, .f32⟩
  | 35 => ⟨S_, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S100000x64, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x64, .f32⟩
  | 51 => ⟨S1700000x64, .f32⟩
  | 52 => ⟨S1700000x64, .f32⟩
  | 53 => ⟨S_, .f32⟩
  | 54 => ⟨S100000x64, .f32⟩
  | 55 => ⟨S1700000x1, .i32⟩
  | 56 => ⟨S100000x64, .f32⟩
  | 57 => ⟨S_, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S100000x64, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x64, .f32⟩
  | 74 => ⟨S1700000x64, .f32⟩
  | 75 => ⟨S_, .f32⟩
  | 76 => ⟨S100000x64, .f32⟩
  | 77 => ⟨S1700000x1, .i32⟩
  | 78 => ⟨S100000x64, .f32⟩
  | 79 => ⟨S_, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x64, .f32⟩
  | 95 => ⟨S1700000x64, .f32⟩
  | 96 => ⟨S1700000x64, .f32⟩
  | 97 => ⟨S_, .f32⟩
  | 98 => ⟨S100000x64, .f32⟩
  | 99 => ⟨S1700000x1, .i32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x64, .f32⟩
  | 118 => ⟨S1700000x64, .f32⟩
  | 119 => ⟨S_, .f32⟩
  | 120 => ⟨S100000x64, .f32⟩
  | 121 => ⟨S1700000x1, .i32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S100000x64, .f32⟩
  | _ => ⟨S100000x512, .f32⟩

abbrev hbmTy0_2 (i : Nat) : BufTy := match i % 128 with
  | 0 => ⟨S100000x64, .f32⟩
  | 1 => ⟨S100000x64, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x64, .f32⟩
  | 11 => ⟨S1700000x64, .f32⟩
  | 12 => ⟨S1700000x64, .f32⟩
  | 13 => ⟨S_, .f32⟩
  | 14 => ⟨S100000x64, .f32⟩
  | 15 => ⟨S1700000x1, .i32⟩
  | 16 => ⟨S100000x64, .f32⟩
  | 17 => ⟨S_, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x64, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_18 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_cst_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_21 : Ref sig .tc := ⟨.hbm, 126, rfl⟩
abbrev main_v93 : Ref sig .tc := ⟨.hbm, 127, rfl⟩
abbrev main_v94 : Ref sig .tc := ⟨.hbm, 128, rfl⟩
abbrev main_c_22 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_23 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_24 : Ref sig .tc := ⟨.hbm, 141, rfl⟩
abbrev main_v105 : Ref sig .tc := ⟨.hbm, 142, rfl⟩
abbrev main_v106 : Ref sig .tc := ⟨.hbm, 143, rfl⟩
abbrev main_cst_25 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_26 : Ref sig .tc := ⟨.hbm, 148, rfl⟩
abbrev main_v110 : Ref sig .tc := ⟨.hbm, 149, rfl⟩
abbrev main_v111 : Ref sig .tc := ⟨.hbm, 150, rfl⟩
abbrev main_c_27 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_28 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_29 : Ref sig .tc := ⟨.hbm, 163, rfl⟩
abbrev main_v122 : Ref sig .tc := ⟨.hbm, 164, rfl⟩
abbrev main_v123 : Ref sig .tc := ⟨.hbm, 165, rfl⟩
abbrev main_cst_30 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_31 : Ref sig .tc := ⟨.hbm, 170, rfl⟩
abbrev main_v127 : Ref sig .tc := ⟨.hbm, 171, rfl⟩
abbrev main_v128 : Ref sig .tc := ⟨.hbm, 172, rfl⟩
abbrev main_c_32 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_33 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_34 : Ref sig .tc := ⟨.hbm, 185, rfl⟩
abbrev main_v139 : Ref sig .tc := ⟨.hbm, 186, rfl⟩
abbrev main_v140 : Ref sig .tc := ⟨.hbm, 187, rfl⟩
abbrev main_cst_35 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_36 : Ref sig .tc := ⟨.hbm, 192, rfl⟩
abbrev main_v144 : Ref sig .tc := ⟨.hbm, 193, rfl⟩
abbrev main_v145 : Ref sig .tc := ⟨.hbm, 194, rfl⟩
abbrev main_c_37 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_38 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_39 : Ref sig .tc := ⟨.hbm, 207, rfl⟩
abbrev main_v156 : Ref sig .tc := ⟨.hbm, 208, rfl⟩
abbrev main_v157 : Ref sig .tc := ⟨.hbm, 209, rfl⟩
abbrev main_cst_40 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_41 : Ref sig .tc := ⟨.hbm, 214, rfl⟩
abbrev main_v161 : Ref sig .tc := ⟨.hbm, 215, rfl⟩
abbrev main_v162 : Ref sig .tc := ⟨.hbm, 216, rfl⟩
abbrev main_c_42 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_43 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_cst_44 : Ref sig .tc := ⟨.hbm, 229, rfl⟩
abbrev main_v173 : Ref sig .tc := ⟨.hbm, 230, rfl⟩
abbrev main_v174 : Ref sig .tc := ⟨.hbm, 231, rfl⟩
abbrev main_cst_45 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_c_46 : Ref sig .tc := ⟨.hbm, 236, rfl⟩
abbrev main_v178 : Ref sig .tc := ⟨.hbm, 237, rfl⟩
abbrev main_v179 : Ref sig .tc := ⟨.hbm, 238, rfl⟩
abbrev main_c_47 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_48 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_49 : Ref sig .tc := ⟨.hbm, 251, rfl⟩
abbrev main_v190 : Ref sig .tc := ⟨.hbm, 252, rfl⟩
abbrev main_v191 : Ref sig .tc := ⟨.hbm, 253, rfl⟩
abbrev main_cst_50 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_c_51 : Ref sig .tc := ⟨.hbm, 258, rfl⟩
abbrev main_v195 : Ref sig .tc := ⟨.hbm, 259, rfl⟩
abbrev main_v196 : Ref sig .tc := ⟨.hbm, 260, rfl⟩
abbrev main_c_52 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_cst_53 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_cst_54 : Ref sig .tc := ⟨.hbm, 273, rfl⟩
abbrev main_v207 : Ref sig .tc := ⟨.hbm, 274, rfl⟩
abbrev main_v208 : Ref sig .tc := ⟨.hbm, 275, rfl⟩
abbrev main_cst_55 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S100000x512_S512x256_S100000x256_1_0_0_1_n_n_wf : DotDims.WF S100000x512 S512x256 S100000x256 [1] [0] [0] [1] [] []
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.BitsSide.Body.lean ====
/-
  The MLP kernel's body as a separation-logic triple, at any float instance.

  One grid point of the row-tiled kernel: the body reads a 5000×512 block of x, the whole of W1 (256×512), b1 (256),
  W2 (64×256) and b2 (64) from their staging buffers, and overwrites the 5000×64 output staging buffer with
  max(x·W1ᵀ + b1, 0)·W2ᵀ + b2 — the one value the body stores. The output buffer is also read once before the store, and
  that value is discarded: the triple asks only that the buffer be held, at any contents.
-/
import proofs.«400581_j8435315769443_4_alg».proof.Proof.Gen.Kernel.Launch
import proofs.«400581_j8435315769443_4_alg».proof.Proof.Gen.Kernel.Skeleton
import proofs.«400581_j8435315769443_4_alg».proof.Proof.Gen.Kernel.Points
import Idealize.ShloMosaic.Lib.Pipeline.FrameBody
import Idealize.ShloMosaic.Lib.Ring
import Idealize.ShloMosaic.Lib.Tactic
set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev rX : Rect S5000x512 := Rect.unit (s := S5000x512) ![0, 0] S5000x512.size inb_S5000x512_S5000x512_0_0
abbrev rW1 : Rect S256x512 := Rect.unit (s := S256x512) ![0, 0] S256x512.size inb_S256x512_S256x512_0_0
abbrev rB1 : Rect S256 := Rect.unit (s := S256) ![0] S256.size inb_S256_S256_0
abbrev rW2 : Rect S64x256 := Rect.unit (s := S64x256) ![0, 0] S64x256.size inb_S64x256_S64x256_0_0
abbrev rB2 : Rect S64 := Rect.unit (s := S64) ![0] S64.size inb_S64_S64_0
abbrev rOut : Rect S5000x64 := Rect.unit (s := S5000x64) ![0, 0] S5000x64.size inb_S5000x64_S5000x64_0_0

/-- What the body leaves in the output staging buffer: its one store, the two-layer perceptron of the loaded blocks. -/
def outBlock (x : Vec F S5000x512 .f32) (w1 : Vec F S256x512 .f32) (b1 : Vec F S256 .f32) (w2 : Vec F S64x256 .f32) (b2 : Vec F S64 .f32) :
    Vec F S5000x64 .f32 :=
  View.canon [⟨rOut, k0_pay1 (View.ld x rX) (View.ld w1 rW1) (View.ld b1 rB1) (View.ld w2 rW2) (View.ld b2 rB2)⟩]

/-- The one store covers the output buffer. -/
theorem outCover (p0 : Vec F S5000x64 .f32) (y : S5000x64.Idx) :
    ∃ pc ∈ ([⟨rOut, p0⟩] : List (View.Piece (Elt F) S5000x64 .f32)), y ∈ pc.1.set :=
  View.cover_of_tiled [⟨rOut, p0⟩] S5000x64.size (by rfl) y

set_option maxHeartbeats 4000000 in
/-- The body on whole staging memrefs: the five inputs held at read contents and handed back as they were, the output
    held at anything and handed back at `outBlock` of the inputs. -/
theorem sound_kernel (c : Dev nD) (E : Set ℕ) (i : grid0.Coords)
    (arg1 : Memref sig .tc .vmem S5000x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S64x256 .f32) (harg4 : arg4.IsWhole)
    (arg5 : Memref sig .tc .vmem S64 .f32) (harg5 : arg5.IsWhole) (arg6 : Memref sig .tc .vmem S5000x64 .f32) (harg6 : arg6.IsWhole)
    (x0 : Vec F S5000x512 .f32) (x1 : Vec F S256x512 .f32) (x2 : Vec F S256 .f32) (x3 : Vec F S64x256 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

end Cert.Kernel.Mlp

end
-- ==== Proof.BitsSide.Around.lean ====
/-
  The program around its one pallas_call, at any float instance: the MLP region comes first, and the 261 host
  operations of the graph propagation follow it (seven consecutive stretches of the printed @main).

  Nothing runs before the region, so the region finds every argument array as launched. No later operation writes an
  argument or the MLP's result z: each writes only its own fresh result buffer. Hence the frame claim follows from a
  frame run around the region, and every argument ends as launched.
-/
import proofs.«400581_j8435315769443_4_alg».proof.Proof.Gen.Kernel.Launch
import proofs.«400581_j8435315769443_4_alg».proof.Proof.Gen.Kernel.Skeleton
import proofs.«400581_j8435315769443_4_alg».proof.Proof.Gen.Kernel.Points
import Idealize.ShloMosaic.Lib.Pipeline.FrameBody
import Idealize.ShloMosaic.Lib.Pipeline.FrameSuffix
set_option maxRecDepth 16384

noncomputable section

namespace Cert.Kernel.Mlp

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with, and the operations that follow it -/

/-- Core `c`'s buffers when the region is entered: the launch contents (no host operation precedes the region). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The propagation: every host operation after the region, as the seven stretches @main is printed in. -/
abbrev tail : List (List (HloOp τ sig (Elt F))) :=
  [main_part0_ops0, main_part0_ops1, main_part0_ops2, main_part1_ops0, main_part2_ops0, main_part3_ops0, main_part4_ops0]

/-- The buffers no operation of the propagation may write: the six arguments and the MLP's result. -/
abbrev kept : List (Ref sig .tc) := [main_arg0, main_arg1, main_arg2, main_arg3, main_arg4, main_arg5, main_v0]

/-- An operation spares the kept buffers. -/
def Spares (op : HloOp τ sig (Elt F)) : Prop := ∀ r ∈ kept, Proc.devRef (τ := τ) .tc r ∉ op.writes

/-- An operation whose one written buffer is not a kept one spares them. -/
theorem spares_of {op : HloOp τ sig (Elt F)} {y : Ref sig .tc} (hw : op.writes = {Proc.devRef .tc y}) (hy : y ∉ kept) : Spares op :=
  fun r hr hmem => by
    rw [hw, Finset.mem_singleton] at hmem
    exact hy (Proc.devRef_injective _ hmem ▸ hr)

theorem part0a_fresh : (main_part0_ops0 : List (HloOp τ sig (Elt F))).Forall fun op => op.fresh = ∅ := by
  simp only [List.Forall]; repeat' constructor
theorem part0b_fresh : (main_part0_ops1 : List (HloOp τ sig (Elt F))).Forall fun op => op.fresh = ∅ := by
  simp only [List.Forall]; repeat' constructor
theorem part0c_fresh : (main_part0_ops2 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem part2_fresh : (main_part2_ops0 : List (HloOp τ sig (Elt F))).Forall fun op => op.fresh = ∅ := by
  simp only [List.Forall]; repeat' constructor
theorem part3_fresh : (main_part3_ops0 : List (HloOp τ sig (Elt F))).Forall fun op => op.fresh = ∅ := by
  simp only [List.Forall]; repeat' constructor
theorem part4_fresh : (main_part4_ops0 : List (HloOp τ sig (Elt F))).Forall fun op => op.fresh = ∅ := by
  simp only [List.Forall]; repeat' constructor

theorem part0a_spares : (main_part0_ops0 : List (HloOp τ sig (Elt F))).Forall Spares := by
  simp only [List.Forall]; repeat' apply And.intro
  all_goals exact spares_of rfl (by decide)
theorem part0b_spares : (main_part0_ops1 : List (HloOp τ sig (Elt F))).Forall Spares := by
  simp only [List.Forall]; repeat' apply And.intro
  all_goals exact spares_of rfl (by decide)
theorem part0c_spares : (main_part0_ops2 : List (HloOp τ sig (Elt F))).Forall Spares := by
  simp only [List.Forall]; repeat' apply And.intro
  all_goals exact spares_of rfl (by decide)
theorem part1_spares : (main_part1_ops0 : List (HloOp τ sig (Elt F))).Forall Spares := by
  simp only [List.Forall]; repeat' apply And.intro
  all_goals exact spares_of rfl (by decide)
theorem part2_spares : (main_part2_ops0 : List (HloOp τ sig (Elt F))).Forall Spares := by
  simp only [List.Forall]; repeat' apply And.intro
  all_goals exact spares_of rfl (by decide)
theorem part3_spares : (main_part3_ops0 : List (HloOp τ sig (Elt F))).Forall Spares := by
  simp only [List.Forall]; repeat' apply And.intro
  all_goals exact spares_of rfl (by decide)
theorem part4_spares : (main_part4_ops0 : List (HloOp τ sig (Elt F))).Forall Spares := by
  simp only [List.Forall]; repeat' apply And.intro
  all_goals exact spares_of rfl (by decide)

/-- Every operation of the propagation touches TensorCore references only, -/
theorem tail_tc : ∀ ops ∈ (tail : List (List (HloOp τ sig (Elt F)))), ∀ op ∈ ops, op.bufs ⊆ StableHlo.tcRefs τ sig := by
  intro ops hops
  simp only [tail, List.mem_cons, List.mem_nil_iff, or_false] at hops
  rcases hops with rfl | rfl | rfl | rfl | rfl | rfl | rfl
  · exact List.forall_iff_forall_mem.mp main_part0_ops0_sub
  · exact List.forall_iff_forall_mem.mp main_part0_ops1_sub
  · exact List.forall_iff_forall_mem.mp main_part0_ops2_sub
  · exact List.forall_iff_forall_mem.mp main_part1_ops0_sub
  · exact List.forall_iff_forall_mem.mp main_part2_ops0_sub
  · exact List.forall_iff_forall_mem.mp main_part3_ops0_sub
  · exact List.forall_iff_forall_mem.mp main_part4_ops0_sub

/-- allocates nothing, -/
theorem tail_fresh : ∀ ops ∈ (tail : List (List (HloOp τ sig (Elt F)))), ∀ op ∈ ops, op.fresh = ∅ := by
  intro ops hops
  simp only [tail, List.mem_cons, List.mem_nil_iff, or_false] at hops
  rcases hops with rfl | rfl | rfl | rfl | rfl | rfl | rfl
  · exact List.forall_iff_forall_mem.mp part0a_fresh
  · exact List.forall_iff_forall_mem.mp part0b_fresh
  · exact List.forall_iff_forall_mem.mp part0c_fresh
  · exact List.forall_iff_forall_mem.mp part1_fresh
  · exact List.forall_iff_forall_mem.mp part2_fresh
  · exact List.forall_iff_forall_mem.mp part3_fresh
  · exact List.forall_iff_forall_mem.mp part4_fresh

/-- and spares the kept buffers. -/
theorem tail_spares : ∀ ops ∈ (tail : List (List (HloOp τ sig (Elt F)))), ∀ op ∈ ops, Spares op := by
  intro ops hops
  simp only [tail, List.mem_cons, List.mem_nil_iff, or_false] at hops
  rcases hops with rfl | rfl | rfl | rfl | rfl | rfl | rfl
  · exact List.forall_iff_forall_mem.mp part0a_spares
  · exact List.forall_iff_forall_mem.mp part0b_spares
  · exact List.forall_iff_forall_mem.mp part0c_spares
  · exact List.forall_iff_forall_mem.mp part1_spares
  · exact List.forall_iff_forall_mem.mp part2_spares
  · exact List.forall_iff_forall_mem.mp part3_spares
  · exact List.forall_iff_forall_mem.mp part4_spares

/-- @main is the region continued by the propagation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall])
    (by simp only [List.Forall]) main_chain_windows

/-- The propagation runs within the pipeline's arrays and the buffers that bypass the region, -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_tc ops hops op hop)

/-- and writes no array of the pipeline: those are five arguments and the MLP's result, all kept. -/
theorem sfx_keeps : ∀ ops ∈ (tail : List (List (HloOp τ sig (Elt F)))), ∀ op ∈ ops,
    ∀ w, Proc.devRef .tc (Pipeline.arrRef spec0 w) ∉ op.writes := by
  intro ops hops op hop w
  exact tail_spares ops hops op hop (Pipeline.arrRef spec0 w) ((by decide : ∀ w, Pipeline.arrRef spec0 w ∈ kept) w)

/-! ## The arguments as the region finds them, and as the program leaves them -/

theorem V_eq (c : Dev nD) (b : Ref sig .tc) : V m c b = m ((c : Thread nD τ).loc b) := rfl

/-- A kept buffer is, after the propagation, what the region left in it. -/
theorem tail_kept (dats : (p : Fin 1) → (c : Dev nD) → Dat τ (Elt F) Unit ℕ (UR sig nD τ) ℕ (cfgs p) c) (c : Dev nD)
    (r : Ref sig .tc) (hr : r ∈ kept) :
    Pipeline.afterTail₀ cfgs dats 0 (V0 m) tail c r
      = Pipeline.withArrays spec0 c (V0 m c) (fun w => (dats 0 c).arrAt w cfg0.N) (Proc.devRef .tc r) := by
  unfold Pipeline.afterTail₀
  exact StableHlo.after_of_forall_not_mem (b := Proc.devRef .tc r) _ _ fun op hop => by
    obtain ⟨ops, hops, hop'⟩ := List.mem_flatten.mp hop
    exact tail_spares ops hops op hop' r hr

/-- The edge list is no array of the pipeline and no operation writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  rw [tail_kept m dats c main_arg1 (by decide),
    Pipeline.withArrays_of_ne _ c (V0 m c) _ main_arg1 (by exact (by decide : ∀ w, Pipeline.arrRef spec0 w ≠ main_arg1))]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched window's
    block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- In a final state a frame run around the region may end in, every argument is as launched: x, W1, b1, W2, b2 are
    arrays the pipeline only reads, and the edge list bypasses the region and is written by no later operation. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tail) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨((h c).1 0).trans (((dats 0 c).arrAt_in 0 rfl _).trans (hA c 0)),
     ((h c).2 main_arg1 (Pipeline.mem_restRefs_of main_arg1 (by decide) (by decide))).trans (W_main_arg1 m dats c),
     ((h c).1 1).trans (((dats 0 c).arrAt_in 1 rfl _).trans (hA c 1)),
     ((h c).1 2).trans (((dats 0 c).arrAt_in 2 rfl _).trans (hA c 2)),
     ((h c).1 3).trans (((dats 0 c).arrAt_in 3 rfl _).trans (hA c 3)),
     ((h c).1 4).trans (((dats 0 c).arrAt_in 4 rfl _).trans (hA c 4))⟩

/-- And the program's last buffer holds what the propagation computes from the region's exit contents. -/
theorem result_of_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) tail) r) (c : Dev nD) :
    r.2.mem ((c.tc : Thread nD τ).loc main_v201) = Pipeline.afterTail₀ cfgs dats 0 (V0 m) tail c main_v201 :=
  (h c).2 main_v201 (Pipeline.mem_restRefs_of main_v201 (by decide) (by decide))

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_of_post m dats hA r h c) h

end Cert.Kernel.Mlp

end
-- ==== Proof.BitsSide.Run.lean ====
/-
  The frame run of the whole program, at any float instance: the pipeline's proof data (after the body at point t the five
  inputs' staging buffers hold their blocks and the output's holds the perceptron of those blocks), the body obligation
  at a generic grid point, the run around the region, and the frame claim.
-/
import proofs.«400581_j8435315769443_4_alg».proof.Proof.BitsSide.Body
import proofs.«400581_j8435315769443_4_alg».proof.Proof.BitsSide.Around

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the output's at the perceptron of the input blocks; the class invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has each array of the pipeline at what the
    proof data give and every other unscoped buffer as the propagation leaves it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := tail_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Mlp

end
-- ==== Proof.IdealSide.Body.lean ====
/-
  The MLP kernel's body as a separation-logic triple, at any float instance.

  One grid point of the row-tiled kernel: the body reads a 5000×512 block of x, the whole of W1 (256×512), b1 (256),
  W2 (64×256) and b2 (64) from their staging buffers, and overwrites the 5000×64 output staging buffer with
  max(x·W1ᵀ + b1, 0)·W2ᵀ + b2 — the one value the body stores. The output buffer is also read once before the store, and
  that value is discarded: the triple asks only that the buffer be held, at any contents.
-/
import proofs.«400581_j8435315769443_4_alg».proof.Proof.Gen.KernelIdeal.Launch
import proofs.«400581_j8435315769443_4_alg».proof.Proof.Gen.KernelIdeal.Skeleton
import proofs.«400581_j8435315769443_4_alg».proof.Proof.Gen.KernelIdeal.Points
import Idealize.ShloMosaic.Lib.Pipeline.FrameBody
import Idealize.ShloMosaic.Lib.Ring
import Idealize.ShloMosaic.Lib.Tactic
set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is its whole buffer -/

abbrev rX : Rect S5000x512 := Rect.unit (s := S5000x512) ![0, 0] S5000x512.size inb_S5000x512_S5000x512_0_0
abbrev rW1 : Rect S256x512 := Rect.unit (s := S256x512) ![0, 0] S256x512.size inb_S256x512_S256x512_0_0
abbrev rB1 : Rect S256 := Rect.unit (s := S256) ![0] S256.size inb_S256_S256_0
abbrev rW2 : Rect S64x256 := Rect.unit (s := S64x256) ![0, 0] S64x256.size inb_S64x256_S64x256_0_0
abbrev rB2 : Rect S64 := Rect.unit (s := S64) ![0] S64.size inb_S64_S64_0
abbrev rOut : Rect S5000x64 := Rect.unit (s := S5000x64) ![0, 0] S5000x64.size inb_S5000x64_S5000x64_0_0

/-- What the body leaves in the output staging buffer: its one store, the two-layer perceptron of the loaded blocks. -/
def outBlock (x : Vec F S5000x512 .f32) (w1 : Vec F S256x512 .f32) (b1 : Vec F S256 .f32) (w2 : Vec F S64x256 .f32) (b2 : Vec F S64 .f32) :
    Vec F S5000x64 .f32 :=
  View.canon [⟨rOut, k0_pay1 (View.ld x rX) (View.ld w1 rW1) (View.ld b1 rB1) (View.ld w2 rW2) (View.ld b2 rB2)⟩]

/-- The one store covers the output buffer. -/
theorem outCover (p0 : Vec F S5000x64 .f32) (y : S5000x64.Idx) :
    ∃ pc ∈ ([⟨rOut, p0⟩] : List (View.Piece (Elt F) S5000x64 .f32)), y ∈ pc.1.set :=
  View.cover_of_tiled [⟨rOut, p0⟩] S5000x64.size (by rfl) y

set_option maxHeartbeats 4000000 in
/-- The body on whole staging memrefs: the five inputs held at read contents and handed back as they were, the output
    held at anything and handed back at `outBlock` of the inputs. -/
theorem sound_kernel (c : Dev nD) (E : Set ℕ) (i : grid0.Coords)
    (arg1 : Memref sig .tc .vmem S5000x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S64x256 .f32) (harg4 : arg4.IsWhole)
    (arg5 : Memref sig .tc .vmem S64 .f32) (harg5 : arg5.IsWhole) (arg6 : Memref sig .tc .vmem S5000x64 .f32) (harg6 : arg6.IsWhole)
    (x0 : Vec F S5000x512 .f32) (x1 : Vec F S256x512 .f32) (x2 : Vec F S256 .f32) (x3 : Vec F S64x256 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

end Cert.KernelIdeal.Mlp

end
-- ==== Proof.IdealSide.Around.lean ====
/-
  The program around its one pallas_call, at any float instance: the MLP region comes first, and the 261 host
  operations of the graph propagation follow it (seven consecutive stretches of the printed @main).

  Nothing runs before the region, so the region finds every argument array as launched. No later operation writes an
  argument or the MLP's result z: each writes only its own fresh result buffer. Hence the frame claim follows from a
  frame run around the region, and every argument ends as launched.
-/
import proofs.«400581_j8435315769443_4_alg».proof.Proof.Gen.KernelIdeal.Launch
import proofs.«400581_j8435315769443_4_alg».proof.Proof.Gen.KernelIdeal.Skeleton
import proofs.«400581_j8435315769443_4_alg».proof.Proof.Gen.KernelIdeal.Points
import Idealize.ShloMosaic.Lib.Pipeline.FrameBody
import Idealize.ShloMosaic.Lib.Pipeline.FrameSuffix
set_option maxRecDepth 16384

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with, and the operations that follow it -/

/-- Core `c`'s buffers when the region is entered: the launch contents (no host operation precedes the region). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The propagation: every host operation after the region, as the seven stretches @main is printed in. -/
abbrev tail : List (List (HloOp τ sig (Elt F))) :=
  [main_part0_ops0, main_part0_ops1, main_part0_ops2, main_part1_ops0, main_part2_ops0, main_part3_ops0, main_part4_ops0]

/-- The buffers no operation of the propagation may write: the six arguments and the MLP's result. -/
abbrev kept : List (Ref sig .tc) := [main_arg0, main_arg1, main_arg2, main_arg3, main_arg4, main_arg5, main_v0]

/-- An operation spares the kept buffers. -/
def Spares (op : HloOp τ sig (Elt F)) : Prop := ∀ r ∈ kept, Proc.devRef (τ := τ) .tc r ∉ op.writes

/-- An operation whose one written buffer is not a kept one spares them. -/
theorem spares_of {op : HloOp τ sig (Elt F)} {y : Ref sig .tc} (hw : op.writes = {Proc.devRef .tc y}) (hy : y ∉ kept) : Spares op :=
  fun r hr hmem => by
    rw [hw, Finset.mem_singleton] at hmem
    exact hy (Proc.devRef_injective _ hmem ▸ hr)

theorem part0a_fresh : (main_part0_ops0 : List (HloOp τ sig (Elt F))).Forall fun op => op.fresh = ∅ := by
  simp only [List.Forall]; repeat' constructor
theorem part0b_fresh : (main_part0_ops1 : List (HloOp τ sig (Elt F))).Forall fun op => op.fresh = ∅ := by
  simp only [List.Forall]; repeat' constructor
theorem part0c_fresh : (main_part0_ops2 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem part2_fresh : (main_part2_ops0 : List (HloOp τ sig (Elt F))).Forall fun op => op.fresh = ∅ := by
  simp only [List.Forall]; repeat' constructor
theorem part3_fresh : (main_part3_ops0 : List (HloOp τ sig (Elt F))).Forall fun op => op.fresh = ∅ := by
  simp only [List.Forall]; repeat' constructor
theorem part4_fresh : (main_part4_ops0 : List (HloOp τ sig (Elt F))).Forall fun op => op.fresh = ∅ := by
  simp only [List.Forall]; repeat' constructor

theorem part0a_spares : (main_part0_ops0 : List (HloOp τ sig (Elt F))).Forall Spares := by
  simp only [List.Forall]; repeat' apply And.intro
  all_goals exact spares_of rfl (by decide)
theorem part0b_spares : (main_part0_ops1 : List (HloOp τ sig (Elt F))).Forall Spares := by
  simp only [List.Forall]; repeat' apply And.intro
  all_goals exact spares_of rfl (by decide)
theorem part0c_spares : (main_part0_ops2 : List (HloOp τ sig (Elt F))).Forall Spares := by
  simp only [List.Forall]; repeat' apply And.intro
  all_goals exact spares_of rfl (by decide)
theorem part1_spares : (main_part1_ops0 : List (HloOp τ sig (Elt F))).Forall Spares := by
  simp only [List.Forall]; repeat' apply And.intro
  all_goals exact spares_of rfl (by decide)
theorem part2_spares : (main_part2_ops0 : List (HloOp τ sig (Elt F))).Forall Spares := by
  simp only [List.Forall]; repeat' apply And.intro
  all_goals exact spares_of rfl (by decide)
theorem part3_spares : (main_part3_ops0 : List (HloOp τ sig (Elt F))).Forall Spares := by
  simp only [List.Forall]; repeat' apply And.intro
  all_goals exact spares_of rfl (by decide)
theorem part4_spares : (main_part4_ops0 : List (HloOp τ sig (Elt F))).Forall Spares := by
  simp only [List.Forall]; repeat' apply And.intro
  all_goals exact spares_of rfl (by decide)

/-- Every operation of the propagation touches TensorCore references only, -/
theorem tail_tc : ∀ ops ∈ (tail : List (List (HloOp τ sig (Elt F)))), ∀ op ∈ ops, op.bufs ⊆ StableHlo.tcRefs τ sig := by
  intro ops hops
  simp only [tail, List.mem_cons, List.mem_nil_iff, or_false] at hops
  rcases hops with rfl | rfl | rfl | rfl | rfl | rfl | rfl
  · exact List.forall_iff_forall_mem.mp main_part0_ops0_sub
  · exact List.forall_iff_forall_mem.mp main_part0_ops1_sub
  · exact List.forall_iff_forall_mem.mp main_part0_ops2_sub
  · exact List.forall_iff_forall_mem.mp main_part1_ops0_sub
  · exact List.forall_iff_forall_mem.mp main_part2_ops0_sub
  · exact List.forall_iff_forall_mem.mp main_part3_ops0_sub
  · exact List.forall_iff_forall_mem.mp main_part4_ops0_sub

/-- allocates nothing, -/
theorem tail_fresh : ∀ ops ∈ (tail : List (List (HloOp τ sig (Elt F)))), ∀ op ∈ ops, op.fresh = ∅ := by
  intro ops hops
  simp only [tail, List.mem_cons, List.mem_nil_iff, or_false] at hops
  rcases hops with rfl | rfl | rfl | rfl | rfl | rfl | rfl
  · exact List.forall_iff_forall_mem.mp part0a_fresh
  · exact List.forall_iff_forall_mem.mp part0b_fresh
  · exact List.forall_iff_forall_mem.mp part0c_fresh
  · exact List.forall_iff_forall_mem.mp part1_fresh
  · exact List.forall_iff_forall_mem.mp part2_fresh
  · exact List.forall_iff_forall_mem.mp part3_fresh
  · exact List.forall_iff_forall_mem.mp part4_fresh

/-- and spares the kept buffers. -/
theorem tail_spares : ∀ ops ∈ (tail : List (List (HloOp τ sig (Elt F)))), ∀ op ∈ ops, Spares op := by
  intro ops hops
  simp only [tail, List.mem_cons, List.mem_nil_iff, or_false] at hops
  rcases hops with rfl | rfl | rfl | rfl | rfl | rfl | rfl
  · exact List.forall_iff_forall_mem.mp part0a_spares
  · exact List.forall_iff_forall_mem.mp part0b_spares
  · exact List.forall_iff_forall_mem.mp part0c_spares
  · exact List.forall_iff_forall_mem.mp part1_spares
  · exact List.forall_iff_forall_mem.mp part2_spares
  · exact List.forall_iff_forall_mem.mp part3_spares
  · exact List.forall_iff_forall_mem.mp part4_spares

/-- @main is the region continued by the propagation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall])
    (by simp only [List.Forall]) main_chain_windows

/-- The propagation runs within the pipeline's arrays and the buffers that bypass the region, -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_tc ops hops op hop)

/-- and writes no array of the pipeline: those are five arguments and the MLP's result, all kept. -/
theorem sfx_keeps : ∀ ops ∈ (tail : List (List (HloOp τ sig (Elt F)))), ∀ op ∈ ops,
    ∀ w, Proc.devRef .tc (Pipeline.arrRef spec0 w) ∉ op.writes := by
  intro ops hops op hop w
  exact tail_spares ops hops op hop (Pipeline.arrRef spec0 w) ((by decide : ∀ w, Pipeline.arrRef spec0 w ∈ kept) w)

/-! ## The arguments as the region finds them, and as the program leaves them -/

theorem V_eq (c : Dev nD) (b : Ref sig .tc) : V m c b = m ((c : Thread nD τ).loc b) := rfl

/-- A kept buffer is, after the propagation, what the region left in it. -/
theorem tail_kept (dats : (p : Fin 1) → (c : Dev nD) → Dat τ (Elt F) Unit ℕ (UR sig nD τ) ℕ (cfgs p) c) (c : Dev nD)
    (r : Ref sig .tc) (hr : r ∈ kept) :
    Pipeline.afterTail₀ cfgs dats 0 (V0 m) tail c r
      = Pipeline.withArrays spec0 c (V0 m c) (fun w => (dats 0 c).arrAt w cfg0.N) (Proc.devRef .tc r) := by
  unfold Pipeline.afterTail₀
  exact StableHlo.after_of_forall_not_mem (b := Proc.devRef .tc r) _ _ fun op hop => by
    obtain ⟨ops, hops, hop'⟩ := List.mem_flatten.mp hop
    exact tail_spares ops hops op hop' r hr

/-- The edge list is no array of the pipeline and no operation writes it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  rw [tail_kept m dats c main_arg1 (by decide),
    Pipeline.withArrays_of_ne _ c (V0 m c) _ main_arg1 (by exact (by decide : ∀ w, Pipeline.arrRef spec0 w ≠ main_arg1))]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched window's
    block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- In a final state a frame run around the region may end in, every argument is as launched: x, W1, b1, W2, b2 are
    arrays the pipeline only reads, and the edge list bypasses the region and is written by no later operation. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tail) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨((h c).1 0).trans (((dats 0 c).arrAt_in 0 rfl _).trans (hA c 0)),
     ((h c).2 main_arg1 (Pipeline.mem_restRefs_of main_arg1 (by decide) (by decide))).trans (W_main_arg1 m dats c),
     ((h c).1 1).trans (((dats 0 c).arrAt_in 1 rfl _).trans (hA c 1)),
     ((h c).1 2).trans (((dats 0 c).arrAt_in 2 rfl _).trans (hA c 2)),
     ((h c).1 3).trans (((dats 0 c).arrAt_in 3 rfl _).trans (hA c 3)),
     ((h c).1 4).trans (((dats 0 c).arrAt_in 4 rfl _).trans (hA c 4))⟩

/-- And the program's last buffer holds what the propagation computes from the region's exit contents. -/
theorem result_of_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) tail) r) (c : Dev nD) :
    r.2.mem ((c.tc : Thread nD τ).loc main_v201) = Pipeline.afterTail₀ cfgs dats 0 (V0 m) tail c main_v201 :=
  (h c).2 main_v201 (Pipeline.mem_restRefs_of main_v201 (by decide) (by decide))

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_of_post m dats hA r h c) h

end Cert.KernelIdeal.Mlp

end
-- ==== Proof.IdealSide.Run.lean ====
/-
  The frame run of the whole program, at any float instance: the pipeline's proof data (after the body at point t the five
  inputs' staging buffers hold their blocks and the output's holds the perceptron of those blocks), the body obligation
  at a generic grid point, the run around the region, and the frame claim.
-/
import proofs.«400581_j8435315769443_4_alg».proof.Proof.IdealSide.Body
import proofs.«400581_j8435315769443_4_alg».proof.Proof.IdealSide.Around

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the output's at the perceptron of the input blocks; the class invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has each array of the pipeline at what the
    proof data give and every other unscoped buffer as the propagation leaves it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := tail_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Mlp

end
-- ==== Proof.Spec.lean ====
/-
  The two-layer perceptron both programs compute before the graph propagation, as one function of the five argument
  arrays, entry by entry over the extended reals:

      hidden r k = max (∑ l < 512, x[r,l] · W1[k,l] + b1[k]) 0
      z[r,j]     = ∑ k < 256, hidden r k · W2[j,k] + b2[j]

  (the zero of the rectifier is kept as the float word 0x00000000 read at the ideal instance, as both programs spell it).
-/
import Idealize.ShloMosaic.PureOps.Ideal
import Idealize.ShloMosaic.Lib.ValueIdx

noncomputable section

namespace Cert.Spec

open Idealize.ShloMosaic Idealize.ShloMosaic.ValueIdx

/-- One hidden unit `k` of row `r`: the rectified affine form of the row against row `k` of W1. -/
def hidden (x : FVec Ideal ⟨2, ![100000, 512]⟩ .f32) (w1 : FVec Ideal ⟨2, ![256, 512]⟩ .f32) (b1 : FVec Ideal ⟨1, ![256]⟩ .f32)
    (r : Fin 100000) (k : Fin 256) : EReal :=
  max ((∑ l : Fin 512, x (ix2 r l) * w1 (ix2 k l)) + b1 (ix1 k)) (Ideal.ofBits .f32 0x00000000#32)

/-- Output `j` of row `r`: the affine form of the row's hidden units against row `j` of W2. -/
def mlpAt (x : FVec Ideal ⟨2, ![100000, 512]⟩ .f32) (w1 : FVec Ideal ⟨2, ![256, 512]⟩ .f32) (b1 : FVec Ideal ⟨1, ![256]⟩ .f32)
    (w2 : FVec Ideal ⟨2, ![64, 256]⟩ .f32) (b2 : FVec Ideal ⟨1, ![64]⟩ .f32) (r : Fin 100000) (j : Fin 64) : EReal :=
  (∑ k : Fin 256, hidden x w1 b1 r k * w2 (ix2 j k)) + b2 (ix1 j)

/-- The perceptron's whole [100000, 64] result. -/
def mlp (x : FVec Ideal ⟨2, ![100000, 512]⟩ .f32) (w1 : FVec Ideal ⟨2, ![256, 512]⟩ .f32) (b1 : FVec Ideal ⟨1, ![256]⟩ .f32)
    (w2 : FVec Ideal ⟨2, ![64, 256]⟩ .f32) (b2 : FVec Ideal ⟨1, ![64]⟩ .f32) : FVec Ideal ⟨2, ![100000, 64]⟩ .f32 :=
  fun i => mlpAt x w1 b1 w2 b2 ⟨(i 0).val, (i 0).isLt⟩ ⟨(i 1).val, (i 1).isLt⟩

theorem mlp_apply (x : FVec Ideal ⟨2, ![100000, 512]⟩ .f32) (w1 : FVec Ideal ⟨2, ![256, 512]⟩ .f32) (b1 : FVec Ideal ⟨1, ![256]⟩ .f32)
    (w2 : FVec Ideal ⟨2, ![64, 256]⟩ .f32) (b2 : FVec Ideal ⟨1, ![64]⟩ .f32) (r : Fin 100000) (j : Fin 64) :
    mlp x w1 b1 w2 b2 (ix2 r j) = mlpAt x w1 b1 w2 b2 r j := rfl

end Cert.Spec

end
-- ==== Proof.IdealSide.Value.lean ====
/-
  What the perceptron's result array holds when the region is left, over the extended reals: the specification's
  function of the five argument arrays.
-/
import proofs.«400581_j8435315769443_4_alg».proof.Proof.IdealSide.Run
import proofs.«400581_j8435315769443_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mlp

open Cert.KernelIdeal Cert.KernelIdeal.Gen
open Idealize.ShloMosaic Idealize.ShloMosaic.TcCoe Idealize.SL.Sem
open Idealize.ShloMosaic.Pipeline (Dat)
open Idealize.ShloMosaic.ValueIdx

/-! ## The two matrix products of a block, entry by entry

Each product contracts the left operand's second axis with the right operand's first and accumulates into zero, so its
entry (r, c) is the sum over k of a[r,k] · b[k,c]. -/

theorem lhs_layer1_0 (i : S5000x256.Idx) (q : dot_S5000x512_S512x256_S5000x256_1_0_0_1_n_n.contr.Idx) :
    (dot_S5000x512_S512x256_S5000x256_1_0_0_1_n_n.lhsIdx i q 0).val = (i 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
theorem lhs_layer1_1 (i : S5000x256.Idx) (q : dot_S5000x512_S512x256_S5000x256_1_0_0_1_n_n.contr.Idx) :
    (dot_S5000x512_S512x256_S5000x256_1_0_0_1_n_n.lhsIdx i q 1).val = (q ⟨0, by decide⟩).val :=
  dot_S5000x512_S512x256_S5000x256_1_0_0_1_n_n.lhsIdx_val_of_single rfl i q
theorem rhs_layer1_0 (i : S5000x256.Idx) (q : dot_S5000x512_S512x256_S5000x256_1_0_0_1_n_n.contr.Idx) :
    (dot_S5000x512_S512x256_S5000x256_1_0_0_1_n_n.rhsIdx i q 0).val = (q ⟨0, by decide⟩).val :=
  dot_S5000x512_S512x256_S5000x256_1_0_0_1_n_n.rhsIdx_val_of_single rfl i q
theorem rhs_layer1_1 (i : S5000x256.Idx) (q : dot_S5000x512_S512x256_S5000x256_1_0_0_1_n_n.contr.Idx) :
    (dot_S5000x512_S512x256_S5000x256_1_0_0_1_n_n.rhsIdx i q 1).val = (i 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- Entry (r, c) of the first product: row r of the left operand against column c of the right. -/
theorem layer1_apply (a : FVec Ideal S5000x512 .f32) (b : FVec Ideal S512x256 .f32) (r : Fin 5000) (c : Fin 256) :
    matmul dot_S5000x512_S512x256_S5000x256_1_0_0_1_n_n (some .fp32) a b (constant (F := Ideal) S5000x256 .f32 0x00000000#32) (ix2 r c)
      = ∑ k : Fin 512, a (ix2 r k) * b (ix2 k c) := by
  simp only [matmul]
  rw [Ideal.matmul_constant_zero_apply, ← Equiv.sum_comp (contrEquiv1 dot_S5000x512_S512x256_S5000x256_1_0_0_1_n_n 512 rfl rfl).symm]
  refine Finset.sum_congr rfl fun k _ => ?_
  have hk := contrEquiv1_symm_val dot_S5000x512_S512x256_S5000x256_1_0_0_1_n_n 512 rfl rfl k
  have el : dot_S5000x512_S512x256_S5000x256_1_0_0_1_n_n.lhsIdx (ix2 r c) ((contrEquiv1 dot_S5000x512_S512x256_S5000x256_1_0_0_1_n_n 512 rfl rfl).symm k) = ix2 r k := funext fun d => Fin.ext (by
    match d with
    | ⟨0, _⟩ => exact lhs_layer1_0 _ _
    | ⟨1, _⟩ => exact (lhs_layer1_1 _ _).trans hk)
  have er : dot_S5000x512_S512x256_S5000x256_1_0_0_1_n_n.rhsIdx (ix2 r c) ((contrEquiv1 dot_S5000x512_S512x256_S5000x256_1_0_0_1_n_n 512 rfl rfl).symm k) = ix2 k c := funext fun d => Fin.ext (by
    match d with
    | ⟨0, _⟩ => exact (rhs_layer1_0 _ _).trans hk
    | ⟨1, _⟩ => exact rhs_layer1_1 _ _)
  rw [el, er]

theorem lhs_layer2_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_layer2_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_layer2_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_layer2_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (r, c) of the second product: row r of the left operand against column c of the right. -/
theorem layer2_apply (a : FVec Ideal S5000x256 .f32) (b : FVec Ideal S256x64 .f32) (r : Fin 5000) (c : Fin 64) :
    matmul dot_S5000x256_S256x64_S5000x64_1_0_0_1_n_n (some .fp32) a b (constant (F := Ideal) S5000x64 .f32 0x00000000#32) (ix2 r c)
      = ∑ k : Fin 256, a (ix2 r k) * b (ix2 k c) := by
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 r c) ((contrEquiv1 dot_S5000x256_S256x64_S5000x64_1_0_0_1_n_n 256 rfl rfl).symm k) = ix2 r k := funext fun d => Fin.ext (by
    match d with
    | ⟨0, _⟩ => exact lhs_layer2_0 _ _
    | ⟨1, _⟩ => exact (lhs_layer2_1 _ _).trans hk)
  have er : dot_S5000x256_S256x64_S5000x64_1_0_0_1_n_n.rhsIdx (ix2 r c) ((contrEquiv1 dot_S5000x256_S256x64_S5000x64_1_0_0_1_n_n 256 rfl rfl).symm k) = ix2 k c := funext fun d => Fin.ext (by
    match d with
    | ⟨0, _⟩ => exact (rhs_layer2_0 _ _).trans hk
    | ⟨1, _⟩ => exact rhs_layer2_1 _ _)
  rw [el, er]

/-! ## The block's perceptron, entry by entry -/

/-- The transposed first-layer weights at (l, k) are W1 at (k, l). -/
theorem w1T_apply (w1 : Vec Ideal S256x512 .f32) (l : Fin 512) (k : Fin 256) :
    transpose S512x256 [1, 0] w1 transposes_S256x512_p1_0_S512x256 (ix2 l k) = w1 (ix2 k l) :=
  transpose_apply _ w1 _ _ _ fun d => match d with | ⟨0, _⟩ => rfl | ⟨1, _⟩ => rfl

/-- The transposed second-layer weights at (k, q) are W2 at (q, k). -/
theorem w2T_apply (w2 : Vec Ideal S64x256 .f32) (k : Fin 256) (q : Fin 64) :
    transpose S256x64 [1, 0] w2 transposes_S64x256_p1_0_S256x64 (ix2 k q) = w2 (ix2 q k) :=
  transpose_apply _ w2 _ _ _ fun d => match d with | ⟨0, _⟩ => rfl | ⟨1, _⟩ => rfl

/-- Entry (r, q) of what the body stores: the rectified first layer of row r of the x block, against row q of W2, plus
    b2[q]. -/
theorem payload_apply (x : Vec Ideal S5000x512 .f32) (w1 : Vec Ideal S256x512 .f32) (b1 : Vec Ideal S256 .f32)
    (w2 : Vec Ideal S64x256 .f32) (b2 : Vec Ideal S64 .f32) (r : Fin 5000) (q : Fin 64) :
    k0_pay1 (F := Ideal) x w1 b1 w2 b2 (ix2 r q)
      = (∑ k : Fin 256, max ((∑ l : Fin 512, x (ix2 r l) * w1 (ix2 k l)) + b1 (ix1 k)) (Ideal.ofBits .f32 0x00000000#32)
            * w2 (ix2 q k)) + b2 (ix1 q) := by
  unfold k0_pay1
  simp only [addf_apply, layer2_apply, layer1_apply, maximumf_apply, broadcast_apply, broadcastTo_1b_ab_apply,
    shapeCast_a_1a_apply]
  refine congrArg (fun s => s + b2 (ix1 q)) (Finset.sum_congr rfl fun k _ => ?_)
  refine congrArg₂ (fun s u => max (s + b1 (ix1 k)) (Ideal.ofBits .f32 0x00000000#32) * u)
    (Finset.sum_congr rfl fun l _ => ?_) (w2T_apply w2 k q)
  exact congrArg (fun u => x (ix2 r l) * u) (w1T_apply w1 l k)

/-! ## From the row blocks to the array -/

variable (m : (ℓ : Loc nD τ sig) → Buf (Elt Ideal) ℓ)

/-- The zero offsets of a whole-buffer rectangle, at rank 2 and at rank 1. -/
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 20 grid points: x and z move by whole row blocks, block t at point t; the weights
    and the biases stay at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row r of row block t is a row of the array: 5000·t + r < 100000. -/
theorem row_lt (t : Fin cfg0.N) (r : Fin 5000) : t.val * 5000 + r.val < 100000 := by
  have ht : t.val < 20 := lt_of_lt_of_eq t.isLt N_0
  have hr := r.isLt
  omega

/-- The x block of point t at (r, l) is x at row 5000·t + r. -/
theorem xBlock_apply (c : Dev nD) (t : Fin cfg0.N) (r : Fin 5000) (l : Fin 512) :
    iblk m c 0 t (ix2 r l) = V m c main_arg0 (ix2 (⟨t.val * 5000 + r.val, row_lt t r⟩ : Fin 100000) l) := by
  obtain ⟨e0, e1, -⟩ := index_facts t
  show V m c main_arg0 (((cfg0.win 0).blk t).view.emb (ix2 r l)) = _
  refine congrArg (V m c main_arg0) (funext fun a => Fin.ext ?_)
  match a with
  | ⟨0, _⟩ => show win0_0.index t (0 : Fin 2) * 5000 + 1 * r.val = t.val * 5000 + r.val; omega
  | ⟨1, _⟩ => show win0_0.index t (1 : Fin 2) * 512 + 1 * l.val = l.val; omega

/-- The W1 block of every point is W1. -/
theorem w1Block_apply (c : Dev nD) (t : Fin cfg0.N) (k : Fin 256) (l : Fin 512) :
    iblk m c 1 t (ix2 k l) = V m c main_arg2 (ix2 k l) := by
  obtain ⟨-, -, e0, e1, -⟩ := index_facts t
  show V m c main_arg2 (((cfg0.win 1).blk t).view.emb (ix2 k l)) = _
  refine congrArg (V m c main_arg2) (funext fun a => Fin.ext ?_)
  match a with
  | ⟨0, _⟩ => show win0_1.index t (0 : Fin 2) * 256 + 1 * k.val = k.val; omega
  | ⟨1, _⟩ => show win0_1.index t (1 : Fin 2) * 512 + 1 * l.val = l.val; omega

/-- The b1 block of every point is b1. -/
theorem b1Block_apply (c : Dev nD) (t : Fin cfg0.N) (k : Fin 256) :
    iblk m c 2 t (ix1 k) = V m c main_arg3 (ix1 k) := by
  obtain ⟨-, -, -, -, e0, -⟩ := index_facts t
  show V m c main_arg3 (((cfg0.win 2).blk t).view.emb (ix1 k)) = _
  refine congrArg (V m c main_arg3) (funext fun a => Fin.ext ?_)
  match a with
  | ⟨0, _⟩ => show win0_2.index t (0 : Fin 1) * 256 + 1 * k.val = k.val; omega

/-- The W2 block of every point is W2. -/
theorem w2Block_apply (c : Dev nD) (t : Fin cfg0.N) (q : Fin 64) (k : Fin 256) :
    iblk m c 3 t (ix2 q k) = V m c main_arg4 (ix2 q k) := by
  obtain ⟨-, -, -, -, -, e0, e1, -⟩ := index_facts t
  show V m c main_arg4 (((cfg0.win 3).blk t).view.emb (ix2 q k)) = _
  refine congrArg (V m c main_arg4) (funext fun a => Fin.ext ?_)
  match a with
  | ⟨0, _⟩ => show win0_3.index t (0 : Fin 2) * 64 + 1 * q.val = q.val; omega
  | ⟨1, _⟩ => show win0_3.index t (1 : Fin 2) * 256 + 1 * k.val = k.val; omega

/-- The b2 block of every point is b2. -/
theorem b2Block_apply (c : Dev nD) (t : Fin cfg0.N) (q : Fin 64) :
    iblk m c 4 t (ix1 q) = V m c main_arg5 (ix1 q) := by
  obtain ⟨-, -, -, -, -, -, -, e0, -⟩ := index_facts t
  show V m c main_arg5 (((cfg0.win 4).blk t).view.emb (ix1 q)) = _
  refine congrArg (V m c main_arg5) (funext fun a => Fin.ext ?_)
  match a with
  | ⟨0, _⟩ => show win0_4.index t (0 : Fin 1) * 64 + 1 * q.val = q.val; omega

/-- What point t writes back is row block t of the specification's perceptron of the argument arrays. -/
theorem flushed_eq (c : Dev nD) (t : Fin cfg0.N) :
    (dats (F := Ideal) m 0 c).flushed 5 t = ((cfg0.win 5).blk t).view.read (Elt Ideal)
      (Cert.Spec.mlp (V m c main_arg0) (V m c main_arg2) (V m c main_arg3) (V m c main_arg4) (V m c main_arg5)) := by
  show (cfg0.win 5).cut (grid0.coords t) ((dats m 0 c).after 5 t) = _
  rw [after0_5]
  unfold outBlock
  rw [View.canon_unit_zero zeros2]
  simp only [View.ld_unit_zero (S := S5000x512) zeros2, View.ld_unit_zero (S := S256x512) zeros2,
    View.ld_unit_zero (S := S256) zeros1, View.ld_unit_zero (S := S64x256) zeros2, View.ld_unit_zero (S := S64) zeros1]
  obtain ⟨-, -, -, -, -, -, -, -, e0, e1⟩ := index_facts t
  refine funext fun (j : S5000x64.Idx) => ?_
  obtain ⟨r, q, rfl⟩ : ∃ (r : Fin 5000) (q : Fin 64), j = ix2 r q := ⟨j 0, j 1, eq_ix2 j⟩
  have hi : ((cfg0.win 5).blk t).view.emb (ix2 r q) = ix2 (⟨t.val * 5000 + r.val, row_lt t r⟩ : Fin 100000) q := by
    funext a; apply Fin.ext
    match a with
    | ⟨0, _⟩ => show win0_5.index t (0 : Fin 2) * 5000 + 1 * r.val = t.val * 5000 + r.val; omega
    | ⟨1, _⟩ => show win0_5.index t (1 : Fin 2) * 64 + 1 * q.val = q.val; omega
  show k0_pay1 (F := Ideal) (iblk m c 0 t) (iblk m c 1 t) (iblk m c 2 t) (iblk m c 3 t) (iblk m c 4 t) (ix2 r q)
    = Cert.Spec.mlp (V m c main_arg0) (V m c main_arg2) (V m c main_arg3) (V m c main_arg4) (V m c main_arg5)
        (((cfg0.win 5).blk t).view.emb (ix2 r q))
  rw [hi, Cert.Spec.mlp_apply, payload_apply]
  unfold Cert.Spec.mlpAt Cert.Spec.hidden
  simp only [xBlock_apply, w1Block_apply, b1Block_apply, w2Block_apply, b2Block_apply]

/-- An index of z is in point t's block iff each coordinate is in the block's range on its axis. -/
theorem mem_zBlock (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v0).slice (win0_5.rect t)).set ↔ _
  rw [View.set_slice_whole, Rect.mem_set_unit]
  exact Iff.rfl

/-- Row i of z lies in the block of point i / 5000, and every point writes its block back. -/
theorem zCover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, -, -, e0, e1⟩ := index_facts ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_zBlock]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    omega

/-- The result array z after the last grid point: every row block has been written back, and block by block it is the
    specification's perceptron of the argument arrays. -/
theorem z_final (c : Dev nD) :
    (dats (F := Ideal) m 0 c).arrAt 5 cfg0.N
      = Cert.Spec.mlp (m ((c : Thread nD τ).loc main_arg0)) (m ((c : Thread nD τ).loc main_arg2)) (m ((c : Thread nD τ).loc main_arg3))
          (m ((c : Thread nD τ).loc main_arg4)) (m ((c : Thread nD τ).loc main_arg5)) :=
  (dats (F := Ideal) m 0 c).arrAt_eq_of_cover 5
    (Cert.Spec.mlp (V m c main_arg0) (V m c main_arg2) (V m c main_arg3) (V m c main_arg4) (V m c main_arg5))
    (fun t _ => flushed_eq m c t) zCover

end Cert.KernelIdeal.Mlp

end
-- ==== Proof.RefRun.lean ====
/-
  The reference program's run: a straight line of 274 host operations. Every weakly fair execution terminates with each
  buffer at the fold of the operations' results over the launch contents; no operation writes an argument.
-/
import proofs.«400581_j8435315769443_4_alg».proof.Proof.RefOps

set_option maxRecDepth 16384

noncomputable section

namespace Cert.ReferenceIdeal.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

set_option maxHeartbeats 4000000 in
/-- No operation allocates. -/
theorem ops_fresh : (ops : List (HloOp τ sig (Elt F))).Forall fun op => op.fresh = ∅ := by
  simp only [List.Forall]; repeat' constructor

/-- The six arguments. -/
abbrev args : List (Ref sig .tc) := [main_arg0, main_arg1, main_arg2, main_arg3, main_arg4, main_arg5]

/-- An operation whose one written buffer is no argument writes no argument. -/
theorem spares_of {op : HloOp τ sig (Elt F)} {y : Ref sig .tc} (hw : op.writes = {Proc.devRef .tc y}) (hy : y ∉ args) :
    ∀ r ∈ args, Proc.devRef (τ := τ) .tc r ∉ op.writes :=
  fun r hr hmem => by
    rw [hw, Finset.mem_singleton] at hmem
    exact hy (Proc.devRef_injective _ hmem ▸ hr)

set_option maxHeartbeats 4000000 in
/-- Each operation writes only its own result buffer, which is no argument. -/
theorem ops_spare : (ops : List (HloOp τ sig (Elt F))).Forall fun op => ∀ r ∈ args, Proc.devRef (τ := τ) .tc r ∉ op.writes := by
  simp only [List.Forall]; repeat' apply And.intro
  all_goals exact spares_of rfl (by decide)

/-- An argument is, after the whole line, what it was at launch. -/
theorem arg_kept (V : Valuation τ sig (Elt F)) (r : Ref sig .tc) (hr : r ∈ args) :
    after (ops (F := F)) V (Proc.devRef .tc r) = V (Proc.devRef .tc r) :=
  after_of_forall_not_mem _ _ fun op hop => (List.forall_iff_forall_mem.mp ops_spare) op hop r hr

/-- The run: the result buffer ends at the fold of the operations over the launch contents, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v211) = after (ops (F := F)) (launchContents m c) (Proc.devRef .tc main_v211)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v211,
      (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide))⟩)
    (run_seq scopedRefs_eq scopedSems_eq defs main (fun _ => ops) main_eq (fun _ => ops_sub) m ρ
      (hfresh := fun _ => List.forall_iff_forall_mem.mp ops_fresh))

end Cert.ReferenceIdeal.RefRun

end
-- ==== Proof.RefValue.lean ====
/-
  The reference's perceptron — two host dot products with the transposed weights, the biases broadcast along the rows,
  the rectifier as a maximum with a broadcast zero — is the specification's function of the argument arrays, entry by
  entry over the extended reals.
-/
import proofs.«400581_j8435315769443_4_alg».proof.Proof.RefRead
import proofs.«400581_j8435315769443_4_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-- The first product's left operand is read at row `r 0`, column `l` of x. -/
theorem lidx_v1_eq (r : S100000x256.Idx) (l : Fin 512) :
    lidx_main_v1 r l = ix2 (⟨(r 0).val, (r 0).isLt⟩ : Fin 100000) l :=
  funext fun a => match a with | ⟨0, _⟩ => rfl | ⟨1, _⟩ => rfl

/-- The first product's right operand, read through the transposition, is W1 at hidden unit `r 1`, column `l`. -/
theorem ridx_v1_eq (r : S100000x256.Idx) (l : Fin 512) :
    idx_main_v0 (ridx_main_v1 r l) = ix2 (⟨(r 1).val, (r 1).isLt⟩ : Fin 256) l :=
  funext fun a => match a with | ⟨0, _⟩ => rfl | ⟨1, _⟩ => rfl

/-- The first bias, broadcast along the rows, is read at hidden unit `r 1`. -/
theorem bidx_v3_eq (r : S100000x256.Idx) :
    idx_main_v2 (idx_main_v3 r) = ix1 (⟨(r 1).val, (r 1).isLt⟩ : Fin 256) :=
  funext fun a => match a with | ⟨0, _⟩ => rfl

/-- The rectified first layer of the reference is the specification's hidden unit. -/
theorem hidden_ref (x0 : (⟨S100000x512, .f32⟩ : BufTy).Contents (Elt Ideal)) (x2 : (⟨S256x512, .f32⟩ : BufTy).Contents (Elt Ideal))
    (x3 : (⟨S256, .f32⟩ : BufTy).Contents (Elt Ideal)) (r : S100000x256.Idx) :
    val_main_v5 (F := Ideal) x0 x2 x3 r
      = Cert.Spec.hidden x0 x2 x3 ⟨(r 0).val, (r 0).isLt⟩ ⟨(r 1).val, (r 1).isLt⟩ := by
  rw [val_main_v5_apply, val_main_v4_apply, val_main_v1_apply, val_main_v3_apply, val_main_v2_apply,
    val_main_call0_v0_apply, val_main_call0_cst_apply, bidx_v3_eq]
  unfold Cert.Spec.hidden
  rw [Ideal.maximumf_def, Ideal.addf_def, Ideal.ofBits_def]
  have hs : ∀ l : Fin 512, x0 (lidx_main_v1 r l) * val_main_v0 (F := Ideal) x2 (ridx_main_v1 r l)
      = x0 (ix2 (⟨(r 0).val, (r 0).isLt⟩ : Fin 100000) l) * x2 (ix2 (⟨(r 1).val, (r 1).isLt⟩ : Fin 256) l) := by
    intro l
    rw [val_main_v0_apply, lidx_v1_eq, ridx_v1_eq]
  rw [Finset.sum_congr rfl (fun l _ => hs l)]

/-- The second product's right operand, read through the transposition, is W2 at output `i 1`, hidden unit `k`. -/
theorem ridx_v7_eq (i : S100000x64.Idx) (k : Fin 256) :
    idx_main_v6 (ridx_main_v7 i k) = ix2 (⟨(i 1).val, (i 1).isLt⟩ : Fin 64) k :=
  funext fun a => match a with | ⟨0, _⟩ => rfl | ⟨1, _⟩ => rfl

/-- The second bias, broadcast along the rows, is read at output `i 1`. -/
theorem bidx_v9_eq (i : S100000x64.Idx) :
    idx_main_v8 (idx_main_v9 i) = ix1 (⟨(i 1).val, (i 1).isLt⟩ : Fin 64) :=
  funext fun a => match a with | ⟨0, _⟩ => rfl

/-- The reference's z stage is the specification's perceptron. -/
theorem z_ref (x0 : (⟨S100000x512, .f32⟩ : BufTy).Contents (Elt Ideal)) (x2 : (⟨S256x512, .f32⟩ : BufTy).Contents (Elt Ideal))
    (x3 : (⟨S256, .f32⟩ : BufTy).Contents (Elt Ideal)) (x4 : (⟨S64x256, .f32⟩ : BufTy).Contents (Elt Ideal))
    (x5 : (⟨S64, .f32⟩ : BufTy).Contents (Elt Ideal)) :
    val_main_v10 (F := Ideal) x0 x2 x3 x4 x5 = Cert.Spec.mlp x0 x2 x3 x4 x5 := by
  funext i
  rw [val_main_v10_apply, val_main_v7_apply, val_main_v9_apply, val_main_v8_apply, bidx_v9_eq, Ideal.addf_def]
  show _ = Cert.Spec.mlpAt x0 x2 x3 x4 x5 ⟨(i 0).val, (i 0).isLt⟩ ⟨(i 1).val, (i 1).isLt⟩
  unfold Cert.Spec.mlpAt
  have hs : ∀ k : Fin 256, val_main_v5 (F := Ideal) x0 x2 x3 (lidx_main_v7 i k) * val_main_v6 (F := Ideal) x4 (ridx_main_v7 i k)
      = Cert.Spec.hidden x0 x2 x3 ⟨(i 0).val, (i 0).isLt⟩ k * x4 (ix2 (⟨(i 1).val, (i 1).isLt⟩ : Fin 64) k) := by
    intro k
    rw [hidden_ref, val_main_v6_apply, ridx_v7_eq]
  rw [Finset.sum_congr rfl (fun k _ => hs k)]

end Cert.ReferenceIdeal.RefValue

end
-- ==== Proof.Heads.lean ====
/-
  Before the propagation, at any float instance: each program slices the two rows out of the edge list, flattens them and
  appends the node numbers 0 … 99999 (one self loop per node) to each. The kernel program does so in its first seven
  operations after the region, the reference in operations 14 to 20, after the thirteen of its perceptron. Both
  endpoint lists are the same function of the edge list; the kernel program's seven operations leave z untouched, and
  the reference's z after its first twenty operations is the eleventh stage of its perceptron.
-/
import proofs.«400581_j8435315769443_4_alg».proof.Proof.Gen.KernelIdeal.Launch
import proofs.«400581_j8435315769443_4_alg».proof.Proof.RefOps
import proofs.«400581_j8435315769443_4_alg».proof.Proof.RefRead
import Idealize.ShloMosaic.Lib.StableHlo.Run

set_option maxRecDepth 16384

noncomputable section

namespace Cert.Heads

open Idealize.ShloMosaic Idealize.ShloMosaic.TcCoe Idealize.SL.Sem Idealize.ShloMosaic.StableHlo

variable {F : FTy → Type} [FloatOps F]

/-- The idealized kernel program's seven operations that build the endpoint lists. -/
abbrev headK : List (HloOp Cert.KernelIdeal.τ Cert.KernelIdeal.sig (Elt F)) :=
  (Cert.KernelIdeal.Gen.main_part0_ops0 (F := F)).take 7

/-- The reference's first twenty operations: its perceptron and its endpoint lists. -/
abbrev headR : List (HloOp Cert.ReferenceIdeal.τ Cert.ReferenceIdeal.sig (Elt F)) :=
  (Cert.ReferenceIdeal.Value.ops (F := F)).take 20

set_option maxHeartbeats 4000000 in
/-- The source endpoints agree when the edge lists do. -/
theorem src_agree (W : Valuation Cert.KernelIdeal.τ Cert.KernelIdeal.sig (Elt F))
    (W' : Valuation Cert.ReferenceIdeal.τ Cert.ReferenceIdeal.sig (Elt F))
    (he : W (Proc.devRef .tc Cert.KernelIdeal.main_arg1) = W' (Proc.devRef .tc Cert.ReferenceIdeal.main_arg1)) :
    StableHlo.after (headK (F := F)) W (Proc.devRef .tc Cert.KernelIdeal.main_v6)
      = StableHlo.after (headR (F := F)) W' (Proc.devRef .tc Cert.ReferenceIdeal.main_v16) := by
  simp only [headK, headR, List.take_succ_cons, List.take_zero]
  after_results
  rw [he]
  rfl

set_option maxHeartbeats 4000000 in
/-- The destination endpoints agree when the edge lists do. -/
theorem dst_agree (W : Valuation Cert.KernelIdeal.τ Cert.KernelIdeal.sig (Elt F))
    (W' : Valuation Cert.ReferenceIdeal.τ Cert.ReferenceIdeal.sig (Elt F))
    (he : W (Proc.devRef .tc Cert.KernelIdeal.main_arg1) = W' (Proc.devRef .tc Cert.ReferenceIdeal.main_arg1)) :
    StableHlo.after (headK (F := F)) W (Proc.devRef .tc Cert.KernelIdeal.main_v7)
      = StableHlo.after (headR (F := F)) W' (Proc.devRef .tc Cert.ReferenceIdeal.main_v17) := by
  simp only [headK, headR, List.take_succ_cons, List.take_zero]
  after_results
  rw [he]
  rfl

set_option maxHeartbeats 4000000 in
/-- The kernel program's seven operations leave z as the region left it. -/
theorem z_kept (W : Valuation Cert.KernelIdeal.τ Cert.KernelIdeal.sig (Elt F)) :
    StableHlo.after (headK (F := F)) W (Proc.devRef .tc Cert.KernelIdeal.main_v0) = W (Proc.devRef .tc Cert.KernelIdeal.main_v0) := by
  simp only [headK, List.take_succ_cons, List.take_zero]
  after_results

set_option maxHeartbeats 4000000 in
/-- The reference's z after its first twenty operations is the eleventh stage of its perceptron, of the argument arrays. -/
theorem z_stage (W' : Valuation Cert.ReferenceIdeal.τ Cert.ReferenceIdeal.sig (Elt F)) :
    StableHlo.after (headR (F := F)) W' (Proc.devRef .tc Cert.ReferenceIdeal.main_v10)
      = Cert.ReferenceIdeal.Read.val_main_v10 (F := F) (W' (Proc.devRef .tc Cert.ReferenceIdeal.main_arg0))
          (W' (Proc.devRef .tc Cert.ReferenceIdeal.main_arg2)) (W' (Proc.devRef .tc Cert.ReferenceIdeal.main_arg3))
          (W' (Proc.devRef .tc Cert.ReferenceIdeal.main_arg4)) (W' (Proc.devRef .tc Cert.ReferenceIdeal.main_arg5)) := by
  simp only [headR, List.take_succ_cons, List.take_zero]
  after_results
  rfl

end Cert.Heads

end
-- ==== Proof.Tails.lean ====
/-
  The graph propagation, compared between the two programs at any float instance.

  After its perceptron each program builds the edge endpoints (the given edges followed by one self loop per node) and
  then runs the same 254 host operations on three values: the perceptron's result z and the two endpoint lists. The
  operations are the same functions applied in the same order; only the buffers' names differ. So from buffer contents
  that agree on those three values both programs' last buffers end equal.
-/
import proofs.«400581_j8435315769443_4_alg».proof.Proof.Gen.KernelIdeal.Launch
import proofs.«400581_j8435315769443_4_alg».proof.Proof.RefOps
import Idealize.ShloMosaic.Lib.Pipeline.Frame
import Idealize.ShloMosaic.Lib.StableHlo.Run

set_option maxRecDepth 16384

noncomputable section

namespace Cert.Tails

open Idealize.ShloMosaic Idealize.ShloMosaic.TcCoe Idealize.SL.Sem Idealize.ShloMosaic.StableHlo

variable {F : FTy → Type} [FloatOps F]

/-- The idealized kernel program's operations after the endpoint lists are built: the rest of its first stretch and
    the six later stretches. -/
abbrev restK : List (HloOp Cert.KernelIdeal.τ Cert.KernelIdeal.sig (Elt F)) :=
  (Cert.KernelIdeal.Gen.main_part0_ops0 (F := F)).drop 7 ++ (Cert.KernelIdeal.Gen.main_part0_ops1 ++ (Cert.KernelIdeal.Gen.main_part0_ops2
    ++ (Cert.KernelIdeal.Gen.main_part1_ops0 ++ (Cert.KernelIdeal.Gen.main_part2_ops0 ++ (Cert.KernelIdeal.Gen.main_part3_ops0
    ++ Cert.KernelIdeal.Gen.main_part4_ops0)))))

/-- The reference's operations after its endpoint lists are built. -/
abbrev restR : List (HloOp Cert.ReferenceIdeal.τ Cert.ReferenceIdeal.sig (Elt F)) :=
  (Cert.ReferenceIdeal.Value.ops (F := F)).drop 20

set_option maxHeartbeats 400000000 in
/-- From contents agreeing on z and on the two endpoint lists, the two propagations end equal. -/
theorem tails_agree (W : Valuation Cert.KernelIdeal.τ Cert.KernelIdeal.sig (Elt F))
    (W' : Valuation Cert.ReferenceIdeal.τ Cert.ReferenceIdeal.sig (Elt F))
    (hz : W (Proc.devRef .tc Cert.KernelIdeal.main_v0) = W' (Proc.devRef .tc Cert.ReferenceIdeal.main_v10))
    (hs : W (Proc.devRef .tc Cert.KernelIdeal.main_v6) = W' (Proc.devRef .tc Cert.ReferenceIdeal.main_v16))
    (hd : W (Proc.devRef .tc Cert.KernelIdeal.main_v7) = W' (Proc.devRef .tc Cert.ReferenceIdeal.main_v17)) :
    StableHlo.after (restK (F := F)) W (Proc.devRef .tc Cert.KernelIdeal.main_v201)
      = StableHlo.after (restR (F := F)) W' (Proc.devRef .tc Cert.ReferenceIdeal.main_v211) := by
  simp only [restK, restR, StableHlo.after_append, List.drop_succ_cons, List.drop_zero]
  after_results_simp
  simp only [TRef.ofBuf, TRef.toBuf, cast_eq]
  rw [hz, hs, hd]
  rfl

end Cert.Tails

end
-- ==== Proof.lean ====
/-
  The certificate's claims for a perceptron followed by ten steps of personalised-PageRank propagation over a graph.

  The kernel program computes the perceptron z = max(x·W1ᵀ + b1, 0)·W2ᵀ + b2 in one row-tiled pallas_call (twenty blocks
  of 5000 rows) and then runs the propagation as 261 host operations; the reference computes z with two host dot
  products and runs the same propagation.

  frame (the word-level and the idealized kernel program): the body's triple at a generic grid point, the proof data
    (each row block of z is the perceptron of the block of x and the whole weights), the launch around the region, and
    the later operations, which write only their own result buffers; the same text serves both instances.
  frame (the reference): its straight line of 274 host operations, none of which writes an argument.
  preserves: the ideal pass rewrote nothing.
  algebraic: over the extended reals the kernel's z is the specification's perceptron of the arguments, row block by row
    block (a matrix product into a zero accumulator is the plain sum over the contracted axis, and so is the host's dot
    product), and so is the reference's; both programs build the same edge endpoints from the edge list; and from equal
    z and endpoints the two propagations — the same operations in the same order — end equal.
-/
import proofs.«400581_j8435315769443_4_alg».proof.Defs
import proofs.«400581_j8435315769443_4_alg».proof.Proof.Gen.Kernel
import proofs.«400581_j8435315769443_4_alg».proof.Proof.Gen.KernelIdeal
import proofs.«400581_j8435315769443_4_alg».proof.Proof.Gen.ReferenceIdeal
import proofs.«400581_j8435315769443_4_alg».proof.Proof.Gen.Pre_finite_inputs
import proofs.«400581_j8435315769443_4_alg».proof.Proof.BitsSide.Run
import proofs.«400581_j8435315769443_4_alg».proof.Proof.IdealSide.Run
import proofs.«400581_j8435315769443_4_alg».proof.Proof.IdealSide.Value
import proofs.«400581_j8435315769443_4_alg».proof.Proof.RefRun
import proofs.«400581_j8435315769443_4_alg».proof.Proof.RefValue
import proofs.«400581_j8435315769443_4_alg».proof.Proof.Heads
import proofs.«400581_j8435315769443_4_alg».proof.Proof.Tails

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Mlp.frame (F := Bits) m ρ

theorem frame_ki : Cert.frame_KernelIdeal := fun m ρ _ => Cert.KernelIdeal.Mlp.frame (F := Ideal) m ρ

theorem frame_r : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The kernel program's operations after the region are the seven that build the endpoints followed by the rest. -/
theorem tail_split {F : FTy → Type} [FloatOps F] :
    (Cert.KernelIdeal.Mlp.tail (F := F)).flatten = Cert.Heads.headK (F := F) ++ Cert.Tails.restK (F := F) := by
  simp only [Cert.KernelIdeal.Mlp.tail, List.flatten_cons, List.flatten_nil, List.append_nil, Cert.Heads.headK, Cert.Tails.restK]
  rw [← List.append_assoc (List.take 7 _), List.take_append_drop]

/-- The reference's operations are its first twenty followed by the rest. -/
theorem ops_split {F : FTy → Type} [FloatOps F] :
    (Cert.ReferenceIdeal.Value.ops (F := F)) = Cert.Heads.headR (F := F) ++ Cert.Tails.restR (F := F) :=
  (List.take_append_drop 20 _).symm

/-- What the idealized kernel program's last buffer holds is what the reference's does, from memories agreeing on the
    arguments. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pipeline.afterTail₀ Cert.KernelIdeal.cfgs (Cert.KernelIdeal.Mlp.dats (F := Ideal) m) 0 (Cert.KernelIdeal.Mlp.V0 m) Cert.KernelIdeal.Mlp.tail c Cert.KernelIdeal.main_v201
      = StableHlo.after (Cert.ReferenceIdeal.Value.ops (F := Ideal)) (launchContents m' c) (Proc.devRef .tc Cert.ReferenceIdeal.main_v211) := by
  -- the contents the region leaves, and the reference's launch contents
  have e1 : StableHlo.after (Cert.KernelIdeal.Mlp.tail (F := Ideal)).flatten
        (Pipeline.withArrays Cert.KernelIdeal.spec0 c (Cert.KernelIdeal.Mlp.V0 m c) fun w => (Cert.KernelIdeal.Mlp.dats (F := Ideal) m 0 c).arrAt w Cert.KernelIdeal.cfg0.N)
        (Proc.devRef .tc Cert.KernelIdeal.main_v201)
      = StableHlo.after (Cert.Tails.restK (F := Ideal)) (StableHlo.after (Cert.Heads.headK (F := Ideal))
          (Pipeline.withArrays Cert.KernelIdeal.spec0 c (Cert.KernelIdeal.Mlp.V0 m c) fun w => (Cert.KernelIdeal.Mlp.dats (F := Ideal) m 0 c).arrAt w Cert.KernelIdeal.cfg0.N))
          (Proc.devRef .tc Cert.KernelIdeal.main_v201) :=
    (congrArg (fun l => StableHlo.after l _ (Proc.devRef .tc Cert.KernelIdeal.main_v201)) (tail_split (F := Ideal))).trans
      (congrFun (StableHlo.after_append _ _ _) _)
  have e2 : StableHlo.after (Cert.ReferenceIdeal.Value.ops (F := Ideal)) (launchContents m' c) (Proc.devRef .tc Cert.ReferenceIdeal.main_v211)
      = StableHlo.after (Cert.Tails.restR (F := Ideal)) (StableHlo.after (Cert.Heads.headR (F := Ideal)) (launchContents m' c))
          (Proc.devRef .tc Cert.ReferenceIdeal.main_v211) :=
    (congrArg (fun l => StableHlo.after l _ (Proc.devRef .tc Cert.ReferenceIdeal.main_v211)) (ops_split (F := Ideal))).trans
      (congrFun (StableHlo.after_append _ _ _) _)
  unfold Pipeline.afterTail₀
  refine e1.trans (Eq.trans ?_ e2.symm)
  refine Cert.Tails.tails_agree (F := Ideal)
    (StableHlo.after (Cert.Heads.headK (F := Ideal))
      (Pipeline.withArrays Cert.KernelIdeal.spec0 c (Cert.KernelIdeal.Mlp.V0 m c) fun w => (Cert.KernelIdeal.Mlp.dats (F := Ideal) m 0 c).arrAt w Cert.KernelIdeal.cfg0.N))
    (StableHlo.after (Cert.Heads.headR (F := Ideal)) (launchContents m' c)) ?_ ?_ ?_
  · -- z: the kernel's row blocks against the reference's two dot products, both the specification's perceptron
    rw [Cert.Heads.z_kept, Cert.Heads.z_stage]
    refine (Pipeline.withArrays_arr Cert.KernelIdeal.spec0 Cert.KernelIdeal.Gen.launch0.win.arr_inj c _ _ 5).trans ?_
    refine (Cert.KernelIdeal.Mlp.z_final m c).trans ?_
    refine Eq.trans ?_ (Cert.ReferenceIdeal.RefValue.z_ref _ _ _ _ _).symm
    rw [← h0, ← h2, ← h3, ← h4, ← h5]
  · refine Cert.Heads.src_agree _ _ ?_
    refine (Pipeline.withArrays_of_ne _ c _ _ Cert.KernelIdeal.main_arg1 (by exact (by decide : ∀ w, Pipeline.arrRef Cert.KernelIdeal.spec0 w ≠ Cert.KernelIdeal.main_arg1))).trans ?_
    exact h1.symm
  · refine Cert.Heads.dst_agree _ _ ?_
    refine (Pipeline.withArrays_of_ne _ c _ _ Cert.KernelIdeal.main_arg1 (by exact (by decide : ∀ w, Pipeline.arrRef Cert.KernelIdeal.spec0 w ≠ Cert.KernelIdeal.main_arg1))).trans ?_
    exact h1.symm

theorem algebraic : Cert.algebraic_KernelIdeal_ReferenceIdeal := by
  intro m ρ m' ρ' _ hagree
  refine ⟨fun c => StableHlo.after (Cert.ReferenceIdeal.Value.ops (F := Ideal)) (launchContents m' c) (Proc.devRef .tc Cert.ReferenceIdeal.main_v211), ?_, ?_⟩
  · refine (θ_run Cert.KernelIdeal.defs _ _).mono (fun r h c => ⟨?_, Cert.KernelIdeal.Mlp.args_of_post m _ (Cert.KernelIdeal.Mlp.A_eq m) r h c⟩)
      (Cert.KernelIdeal.Mlp.run_main (F := Ideal) m ρ)
    refine (Cert.KernelIdeal.Mlp.result_of_post m _ r h c).trans ?_
    exact results_agree m m' c (hagree c).1 (hagree c).2.1 (hagree c).2.2.1 (hagree c).2.2.2.1 (hagree c).2.2.2.2.1 (hagree c).2.2.2.2.2
  · exact Cert.ReferenceIdeal.RefRun.run (F := Ideal) m' ρ'

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
